-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128x2 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x128 .f32) (main_arg4 : FVec F S64x128 .f32) (main_arg5 : FVec F S128 .f32) (main_arg6 : FVec F S128x2 .f32) (main_arg7 : FVec F S128x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x2 : Shape := ⟨2, ![1, 2]⟩
abbrev S100000x2 : Shape := ⟨2, ![100000, 2]⟩
abbrev S5000x2 : Shape := ⟨2, ![5000, 2]⟩
abbrev S64 : Shape := ⟨1, ![64]⟩
abbrev S64x2 : Shape := ⟨2, ![64, 2]⟩
abbrev S64x1 : Shape := ⟨2, ![64, 1]⟩

abbrev nBuf : Space → Nat
  | .hbm => 92
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x2, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S1x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x2, .f32⟩
  | .hbm, ⟨60, _⟩ => ⟨S100000x2, .f32⟩
  | .hbm, ⟨61, _⟩ => ⟨S_, .f32⟩
  | .hbm, ⟨62, _⟩ => ⟨S100000, .f32⟩
  | .hbm, ⟨63, _⟩ => ⟨S_, .f32⟩
  | .hbm, ⟨64, _⟩ => ⟨S64, .f32⟩
  | .hbm, ⟨65, _⟩ => ⟨S100000x1, .i32⟩
  | .hbm, ⟨66, _⟩ => ⟨S64, .f32⟩
  | .hbm, ⟨67, _⟩ => ⟨S_, .f32⟩
  | .hbm, ⟨68, _⟩ => ⟨S64x2, .f32⟩
  | .hbm, ⟨69, _⟩ => ⟨S100000x1, .i32⟩
  | .hbm, ⟨70, _⟩ => ⟨S64x2, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64x1, .f32⟩
  | .hbm, ⟨75, _⟩ => ⟨S64x2, .f32⟩
  | .hbm, ⟨76, _⟩ => ⟨S64x2, .f32⟩
  | .hbm, ⟨77, _⟩ => ⟨S_, .f32⟩
  | .hbm, ⟨78, _⟩ => ⟨S64, .f32⟩
  | .hbm, ⟨79, _⟩ => ⟨S_, .f32⟩
  | .hbm, ⟨80, _⟩ => ⟨S64, .f32⟩
  | .hbm, ⟨81, _⟩ => ⟨S64, .f32⟩
  | .hbm, ⟨82, _⟩ => ⟨S64x1, .f32⟩
  | .hbm, ⟨83, _⟩ => ⟨S64x2, .f32⟩
  | .hbm, ⟨84, _⟩ => ⟨S64x2, .f32⟩
  | .hbm, ⟨85, _⟩ => ⟨S64x2, .f32⟩
  | .hbm, ⟨86, _⟩ => ⟨S_, .f32⟩
  | .hbm, ⟨87, _⟩ => ⟨S64, .f32⟩
  | .hbm, ⟨88, _⟩ => ⟨S64x1, .f32⟩
  | .hbm, ⟨89, _⟩ => ⟨S64x1, .f32⟩
  | .hbm, ⟨90, _⟩ => ⟨S64x2, .f32⟩
  | .hbm, ⟨91, _⟩ => ⟨S64x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x2, .f32⟩
  | .local _ .vmem, ⟨14, _⟩ => ⟨S128x2, .f32⟩
  | .local _ .vmem, ⟨15, _⟩ => ⟨S1x2, .f32⟩
  | .local _ .vmem, ⟨16, _⟩ => ⟨S5000x2, .f32⟩
  | .local _ .vmem, ⟨17, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call0_cst : Ref sig .tc := ⟨.hbm, 77, rfl⟩
abbrev main_call0_v0 : Ref sig .tc := ⟨.hbm, 78, rfl⟩
abbrev main_call0_cst_0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_cst_1 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_v54 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S2_S1x2 : S2.ShapeCasts S1x2
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S_S64 : S_.BroadcastsInDim S64 (![] : Fin 0 → Fin S64.rank)
  bcast_S_S64x2 : S_.BroadcastsInDim S64x2 (![] : Fin 0 → Fin S64x2.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  reducesTo_S64x2_S64_d1 : S64x2.ReducesTo [1] S64
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  scatter_S64_S100000x1_S100000_n_0_0_1_wf : ScatterDims.WF S64 S100000x1 S100000 [] [0] [0] 1
  scatter_S64x2_S100000x1_S100000x2_1_0_0_1_wf : ScatterDims.WF S64x2 S100000x1 S100000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x2 : Shape := ⟨2, ![100000, 2]⟩
abbrev S1x2 : Shape := ⟨2, ![1, 2]⟩
abbrev S64 : Shape := ⟨1, ![64]⟩
abbrev S64x2 : Shape := ⟨2, ![64, 2]⟩
abbrev S64x1 : Shape := ⟨2, ![64, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x128, .f32⟩
  | .hbm, ⟨4, _⟩ => ⟨S64x128, .f32⟩
  | .hbm, ⟨5, _⟩ => ⟨S128, .f32⟩
  | .hbm, ⟨6, _⟩ => ⟨S128x2, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x2, .f32⟩
  | .hbm, ⟨67, _⟩ => ⟨S100000x2, .f32⟩
  | .hbm, ⟨68, _⟩ => ⟨S100000x2, .f32⟩
  | .hbm, ⟨69, _⟩ => ⟨S1x2, .f32⟩
  | .hbm, ⟨70, _⟩ => ⟨S100000x2, .f32⟩
  | .hbm, ⟨71, _⟩ => ⟨S100000x2, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S64, .f32⟩
  | .hbm, ⟨76, _⟩ => ⟨S100000x1, .i32⟩
  | .hbm, ⟨77, _⟩ => ⟨S64, .f32⟩
  | .hbm, ⟨78, _⟩ => ⟨S_, .f32⟩
  | .hbm, ⟨79, _⟩ => ⟨S64x2, .f32⟩
  | .hbm, ⟨80, _⟩ => ⟨S100000x1, .i32⟩
  | .hbm, ⟨81, _⟩ => ⟨S64x2, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x2, .f32⟩
  | .hbm, ⟨87, _⟩ => ⟨S64x2, .f32⟩
  | .hbm, ⟨88, _⟩ => ⟨S_, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S64x1, .f32⟩
  | .hbm, ⟨94, _⟩ => ⟨S64x2, .f32⟩
  | .hbm, ⟨95, _⟩ => ⟨S64x2, .f32⟩
  | .hbm, ⟨96, _⟩ => ⟨S64x2, .f32⟩
  | .hbm, ⟨97, _⟩ => ⟨S_, .f32⟩
  | .hbm, ⟨98, _⟩ => ⟨S64, .f32⟩
  | .hbm, ⟨99, _⟩ => ⟨S64x1, .f32⟩
  | .hbm, ⟨100, _⟩ => ⟨S64x1, .f32⟩
  | .hbm, ⟨101, _⟩ => ⟨S64x2, .f32⟩
  | .hbm, ⟨102, _⟩ => ⟨S64x2, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_cst : Ref sig .tc := ⟨.hbm, 88, rfl⟩
abbrev main_call1_v0 : Ref sig .tc := ⟨.hbm, 89, rfl⟩
abbrev main_call1_cst_0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_cst_1 : Ref sig .tc := ⟨.hbm, 97, rfl⟩
abbrev main_call1_v7 : Ref sig .tc := ⟨.hbm, 98, rfl⟩
abbrev main_call1_v8 : Ref sig .tc := ⟨.hbm, 99, rfl⟩
abbrev main_call1_v9 : Ref sig .tc := ⟨.hbm, 100, rfl⟩
abbrev main_call1_v10 : Ref sig .tc := ⟨.hbm, 101, rfl⟩
abbrev main_v63 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S64 : S_.BroadcastsInDim S64 (![] : Fin 0 → Fin S64.rank)
  bcast_S_S64x2 : S_.BroadcastsInDim S64x2 (![] : Fin 0 → Fin S64x2.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  reducesTo_S64x2_S64_d1 : S64x2.ReducesTo [1] S64
  h_S_ : 0 < S_.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  scatter_S64_S100000x1_S100000_n_0_0_1_wf : ScatterDims.WF S64 S100000x1 S100000 [] [0] [0] 1
  scatter_S64x2_S100000x1_S100000x2_1_0_0_1_wf : ScatterDims.WF S64x2 S100000x1 S100000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x2_S100000x1_S100000x2_1_0_0_1 : ScatterDims S64x2 S100000x1 S100000x2 where
  updateWindowDims := [1]
  insertedWindowDims := [0]
  scatterDimsToOperandDims := [0]
  indexVectorDim := 1
  wf := scatter_S64x2_S100000x1_S100000x2_1_0_0_1_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LayerSpec.lean ====
/-
  The activation both programs use after the first layer: the larger of a value and zero.
-/
import proofs.«102823_j5617817223572_1_alg».proof.Proof.LibSageSpec

noncomputable section

namespace Cert.SageNet

open Idealize.ShloMosaic

/-- The rectifier: the larger of `s` and the value of the zero word. -/
def relu (s : EReal) : EReal := max s (Ideal.ofBits .f32 0x00000000#32)

end Cert.SageNet

end
-- ==== Proof.Payload.lean ====
/-
  What each of the two kernel bodies stores, read at an index of its block. A body loads a block of rows of the
  aggregated neighbour features and the same rows of the node features, the two weight matrices whole and the bias as a
  one-row matrix; it rounds the four matrices to bf16 (the identity on the extended reals), multiplies each block by its
  weight matrix into a zero accumulator, adds the two products and then the bias row spread over the block's rows; the
  first layer's body then takes the maximum with zero. So entry (p, q) of the stored block is a sum over the contracted
  axis of row p against column q, twice, plus the bias at q.
-/
import proofs.«102823_j5617817223572_1_alg».proof.Proof.Gen.KernelIdeal.Skeleton
import proofs.«102823_j5617817223572_1_alg».proof.Proof.LayerSpec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Payload

open Cert.KernelIdeal Cert.KernelIdeal.Gen Idealize.ShloMosaic Idealize.ShloMosaic.ValueIdx Idealize.ShloMosaic.SageSpec Cert.SageNet

/-! ## Region 0: a block of 5000 rows, 64 input features, 128 output features -/

theorem lhs0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The block's matrix product contracts axis 1 of the rows against axis 0 of the weights. -/
theorem plain0 : PlainDot dot_S5000x64_S64x128_S5000x128_1_0_0_1_n_n where
  rank := rfl
  size := fun _ => rfl
  l0 := fun i q => lhs0_0 i q
  l1 := fun i q _ => lhs0_1 i q
  r0 := fun i q _ => rhs0_0 i q
  r1 := fun i q => rhs0_1 i q

/-- What the body stores at row `p`, column `q` of its block: row `p` of the aggregated block against column `q` of the
    first weight matrix, plus row `p` of the features' block against column `q` of the second, plus the bias at `q`, clamped below at zero. -/
theorem pay0_at (x0 x1 : Vec Ideal S5000x64 .f32) (x2 x3 : Vec Ideal S64x128 .f32) (x4 : Vec Ideal S1x128 .f32) (p : Fin 5000) (q : Fin 128) :
    k0_pay1 (F := Ideal) x0 x1 x2 x3 x4 (ix2 p q)
      = relu (rowDot (fun i => x0 i) (fun i => x2 i) p q + rowDot (fun i => x1 i) (fun i => x3 i) p q + x4 (ix2 (0 : Fin 1) q)) := by
  unfold k0_pay1
  unfold relu
  simp only [maximumf_apply, broadcast_apply, addf_apply, shapeCast_self, matmul]
  rw [matmul_zero_at plain0, matmul_zero_at plain0, broadcastTo_1b_ab_apply]
  rfl

/-! ## Region 1: a block of 5000 rows, 128 input features, 2 output features -/

theorem lhs1_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs1_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs1_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs1_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The block's matrix product contracts axis 1 of the rows against axis 0 of the weights. -/
theorem plain1 : PlainDot dot_S5000x128_S128x2_S5000x2_1_0_0_1_n_n where
  rank := rfl
  size := fun _ => rfl
  l0 := fun i q => lhs1_0 i q
  l1 := fun i q _ => lhs1_1 i q
  r0 := fun i q _ => rhs1_0 i q
  r1 := fun i q => rhs1_1 i q

/-- What the body stores at row `p`, column `q` of its block: row `p` of the aggregated block against column `q` of the
    first weight matrix, plus row `p` of the features' block against column `q` of the second, plus the bias at `q`. -/
theorem pay1_at (x0 x1 : Vec Ideal S5000x128 .f32) (x2 x3 : Vec Ideal S128x2 .f32) (x4 : Vec Ideal S1x2 .f32) (p : Fin 5000) (q : Fin 2) :
    k1_pay1 (F := Ideal) x0 x1 x2 x3 x4 (ix2 p q)
      = id (rowDot (fun i => x0 i) (fun i => x2 i) p q + rowDot (fun i => x1 i) (fun i => x3 i) p q + x4 (ix2 (0 : Fin 1) q)) := by
  unfold k1_pay1
  rw [id_eq]
  simp only [addf_apply, shapeCast_self, matmul]
  rw [matmul_zero_at plain1, matmul_zero_at plain1, broadcastTo_1b_ab_apply]
  rfl

end Cert.KernelIdeal.Payload

end
-- ==== Proof.Region0.lean ====
/-
  The first pallas_call's result array: the rectified layer max(agg·Wl + x·Wr + b, 0) of the whole arrays.
  The region runs its body at 20 grid points. At point t the pipeline hands the body rows 5000·t … 5000·t + 4999 of the
  aggregated features and of the node features, both weight matrices whole and the one-row bias whole, and writes the
  body's block back to the same rows of the result. Entry (p, q) of that block is the layer's entry (5000·t + p, q) of
  the whole arrays, because row p of a block is row 5000·t + p of its array; and every row of the result lies in the
  block of point row / 5000. So the result array ends holding the layer of the arrays the region was entered with.
-/
import proofs.«102823_j5617817223572_1_alg».proof.Proof.Gen.KernelIdeal.Frame
import proofs.«102823_j5617817223572_1_alg».proof.Proof.Payload

set_option maxRecDepth 16384

noncomputable section

open scoped BigOperators

namespace Cert.KernelIdeal.Region0

open Cert.KernelIdeal Cert.KernelIdeal.Gen Cert.KernelIdeal.Payload
open Idealize.ShloMosaic Idealize.ShloMosaic.TcCoe Idealize.ShloMosaic.ValueIdx Idealize.ShloMosaic.SageSpec Cert.SageNet
open Idealize.SL.Sem
open Idealize.ShloMosaic.Pipeline (Dat Cfg Window)

variable (V : (c : Dev nD) → (b : Ref sig .tc) → Buf (Elt Ideal) ((c : Thread nD τ).loc b))

/-- The arrays the region is entered with, by their literal types: the aggregated features, the node features, the two
    weight matrices and the bias as a one-row matrix. -/
abbrev aggArr (c : Dev nD) : Vec Ideal S100000x64 .f32 := V c main_v24
abbrev featArr (c : Dev nD) : Vec Ideal S100000x64 .f32 := V c main_arg0
abbrev wlArr (c : Dev nD) : Vec Ideal S64x128 .f32 := V c main_arg3
abbrev wrArr (c : Dev nD) : Vec Ideal S64x128 .f32 := V c main_arg4
abbrev biasArr (c : Dev nD) : Vec Ideal S1x128 .f32 := V c main_v25

/-- The layer over the whole arrays: what the result array ends holding. -/
def layer (c : Dev nD) : Vec Ideal S100000x128 .f32 :=
  sageF relu (aggArr V c) (featArr V c) (wlArr V c) (wrArr V c) (fun q => biasArr V c (ix2 (0 : Fin 1) q))

theorem origin : (![0, 0] : Fin 2 → Nat) = fun _ => 0 := funext fun a => by fin_cases a <;> rfl

/-- The printed index maps, decided over the grid: the two row-blocked inputs and the output are at block row `t`,
    block column 0; the weights and the bias are at block (0, 0). -/
theorem index_maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A block whose rows are rows `r` of the arrays, with the weights and the bias whole, stores the layer's row `r`. -/
theorem block_value (A X : Vec Ideal S100000x64 .f32) (Wl Wr : Vec Ideal S64x128 .f32) (B : Vec Ideal S1x128 .f32)
    (x0 x1 : Vec Ideal S5000x64 .f32) (x2 x3 : Vec Ideal S64x128 .f32) (x4 : Vec Ideal S1x128 .f32)
    (p : Fin 5000) (q : Fin 128) (r : Fin 100000)
    (h0 : ∀ k : Fin 64, x0 (ix2 p k) = A (ix2 r k)) (h1 : ∀ k : Fin 64, x1 (ix2 p k) = X (ix2 r k))
    (h2 : x2 = Wl) (h3 : x3 = Wr) (h4 : x4 = B) :
    k0_pay1 (F := Ideal) x0 x1 x2 x3 x4 (ix2 p q) = sageF relu A X Wl Wr (fun q => B (ix2 (0 : Fin 1) q)) (ix2 r q) := by
  rw [pay0_at]
  subst h2 h3 h4
  unfold sageF rowDot
  simp only [h0, h1]

/-- WHAT POINT `t` WRITES BACK is block `t` of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero origin]
  simp only [View.ld_unit_zero (S := S5000x64) origin, View.ld_unit_zero (S := S64x128) origin, View.ld_unit_zero (S := S1x128) origin]
  obtain ⟨e00, e01, e10, e11, e20, e21, e30, e31, e40, e41, e50, e51⟩ := index_maps t
  have ht : t.val < 20 := lt_of_lt_of_eq t.isLt N_0
  funext j
  have hj0 : (j 0).val < 5000 := (j 0).isLt
  have hj1 : (j 1).val < 128 := (j 1).isLt
  have hr : t.val * 5000 + (j 0).val < 100000 := by omega
  have ej : j = ix2 (⟨(j 0).val, hj0⟩ : Fin 5000) (⟨(j 1).val, hj1⟩ : Fin 128) :=
    funext fun a => Fin.ext (by match a with | ⟨0, _⟩ => rfl | ⟨1, _⟩ => rfl)
  have ei : ((cfg0.win 5).blk t).view.emb j = ix2 (⟨t.val * 5000 + (j 0).val, hr⟩ : Fin 100000) (⟨(j 1).val, hj1⟩ : Fin 128) :=
    funext fun a => Fin.ext (by
      match a with
      | ⟨0, _⟩ => show win0_5.index t (0 : Fin 2) * 5000 + 1 * (j 0).val = t.val * 5000 + (j 0).val; omega
      | ⟨1, _⟩ => show win0_5.index t (1 : Fin 2) * 128 + 1 * (j 1).val = (j 1).val; omega)
  show k0_pay1 (F := Ideal) (iblk0 V c 0 t) (iblk0 V c 1 t) (iblk0 V c 2 t) (iblk0 V c 3 t) (iblk0 V c 4 t) j
    = layer V c (((cfg0.win 5).blk t).view.emb j)
  rw [ei]
  refine (congrArg (k0_pay1 (F := Ideal) (iblk0 V c 0 t) (iblk0 V c 1 t) (iblk0 V c 2 t) (iblk0 V c 3 t) (iblk0 V c 4 t)) ej).trans ?_
  refine block_value (aggArr V c) (featArr V c) (wlArr V c) (wrArr V c) (biasArr V c) (iblk0 V c 0 t) (iblk0 V c 1 t) (iblk0 V c 2 t) (iblk0 V c 3 t) (iblk0 V c 4 t)
    ⟨(j 0).val, hj0⟩ ⟨(j 1).val, hj1⟩ ⟨t.val * 5000 + (j 0).val, hr⟩ ?_ ?_ ?_ ?_ ?_
  · intro k
    show V c main_v24 (((cfg0.win 0).blk t).view.emb (ix2 (⟨(j 0).val, hj0⟩ : Fin 5000) k)) = V c main_v24 (ix2 (⟨t.val * 5000 + (j 0).val, hr⟩ : Fin 100000) k)
    refine congrArg (V c main_v24) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 64 + 1 * k.val = k.val; omega
  · intro k
    show V c main_arg0 (((cfg0.win 1).blk t).view.emb (ix2 (⟨(j 0).val, hj0⟩ : Fin 5000) k)) = V c main_arg0 (ix2 (⟨t.val * 5000 + (j 0).val, hr⟩ : Fin 100000) k)
    refine congrArg (V c main_arg0) (funext fun a => Fin.ext ?_)
    match a with
    | ⟨0, _⟩ => show win0_1.index t (0 : Fin 2) * 5000 + 1 * (j 0).val = t.val * 5000 + (j 0).val; omega
    | ⟨1, _⟩ => show win0_1.index t (1 : Fin 2) * 64 + 1 * k.val = k.val; omega
  · funext y
    show V c main_arg3 (((cfg0.win 2).blk t).view.emb y) = V c main_arg3 y
    refine congrArg (V c main_arg3) (funext fun a => Fin.ext ?_)
    match a with
    | ⟨0, _⟩ => show win0_2.index t (0 : Fin 2) * 64 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg (V c main_arg4) (funext fun a => Fin.ext ?_)
    match a with
    | ⟨0, _⟩ => show win0_3.index t (0 : Fin 2) * 64 + 1 * (y 0).val = (y 0).val; omega
    | ⟨1, _⟩ => show win0_3.index t (1 : Fin 2) * 128 + 1 * (y 1).val = (y 1).val; omega
  · funext y
    show V c main_v25 (((cfg0.win 4).blk t).view.emb y) = V c main_v25 y
    refine congrArg (V c main_v25) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega

/-- An index of the result array is in point `t`'s block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the result array lies in the block of the point its row divided by 5000 names. -/
theorem covered (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hq : (i 0).val / 5000 < 20 := by omega
  refine ⟨⟨(i 0).val / 5000, lt_of_lt_of_eq hq N_0.symm⟩, flush0_5 _, ?_⟩
  obtain ⟨-, -, -, -, -, -, -, -, -, -, e50, e51⟩ := index_maps ⟨(i 0).val / 5000, lt_of_lt_of_eq hq N_0.symm⟩
  have e50' : win0_5.index ⟨(i 0).val / 5000, lt_of_lt_of_eq hq N_0.symm⟩ (0 : Fin 2) = (i 0).val / 5000 := e50
  rw [mem_block]
  intro a
  match a with
  | ⟨0, _⟩ =>
    show win0_5.index ⟨(i 0).val / 5000, lt_of_lt_of_eq hq N_0.symm⟩ (0 : Fin 2) * 5000 ≤ (i 0).val
      ∧ (i 0).val < win0_5.index ⟨(i 0).val / 5000, lt_of_lt_of_eq hq N_0.symm⟩ (0 : Fin 2) * 5000 + 5000
    omega
  | ⟨1, _⟩ =>
    show win0_5.index ⟨(i 0).val / 5000, lt_of_lt_of_eq hq N_0.symm⟩ (1 : Fin 2) * 128 ≤ (i 1).val
      ∧ (i 1).val < win0_5.index ⟨(i 0).val / 5000, lt_of_lt_of_eq hq N_0.symm⟩ (1 : Fin 2) * 128 + 128
    omega

/-- THE RESULT ARRAY after the region: the layer of the arrays the region was entered with. -/
theorem result_eq (c : Dev nD) : (dat0 V c).arrAt 5 cfg0.N = layer V c :=
  (dat0 V c).arrAt_eq_of_cover 5 (layer V c) (fun t _ => flushed_eq V c t) covered

end Cert.KernelIdeal.Region0

end
-- ==== Proof.Region1.lean ====
/-
  The second pallas_call's result array: the layer agg·Wl + h·Wr + b of the whole arrays.
  The region runs its body at 20 grid points. At point t the pipeline hands the body rows 5000·t … 5000·t + 4999 of the
  aggregated features and of the node features, both weight matrices whole and the one-row bias whole, and writes the
  body's block back to the same rows of the result. Entry (p, q) of that block is the layer's entry (5000·t + p, q) of
  the whole arrays, because row p of a block is row 5000·t + p of its array; and every row of the result lies in the
  block of point row / 5000. So the result array ends holding the layer of the arrays the region was entered with.
-/
import proofs.«102823_j5617817223572_1_alg».proof.Proof.Gen.KernelIdeal.Frame
import proofs.«102823_j5617817223572_1_alg».proof.Proof.Payload

set_option maxRecDepth 16384

noncomputable section

open scoped BigOperators

namespace Cert.KernelIdeal.Region1

open Cert.KernelIdeal Cert.KernelIdeal.Gen Cert.KernelIdeal.Payload
open Idealize.ShloMosaic Idealize.ShloMosaic.TcCoe Idealize.ShloMosaic.ValueIdx Idealize.ShloMosaic.SageSpec Cert.SageNet
open Idealize.SL.Sem
open Idealize.ShloMosaic.Pipeline (Dat Cfg Window)

variable (V : (c : Dev nD) → (b : Ref sig .tc) → Buf (Elt Ideal) ((c : Thread nD τ).loc b))

/-- The arrays the region is entered with, by their literal types: the aggregated features, the node features, the two
    weight matrices and the bias as a one-row matrix. -/
abbrev aggArr (c : Dev nD) : Vec Ideal S100000x128 .f32 := V c main_v39
abbrev featArr (c : Dev nD) : Vec Ideal S100000x128 .f32 := V c main_v26
abbrev wlArr (c : Dev nD) : Vec Ideal S128x2 .f32 := V c main_arg6
abbrev wrArr (c : Dev nD) : Vec Ideal S128x2 .f32 := V c main_arg7
abbrev biasArr (c : Dev nD) : Vec Ideal S1x2 .f32 := V c main_v40

/-- The layer over the whole arrays: what the result array ends holding. -/
def layer (c : Dev nD) : Vec Ideal S100000x2 .f32 :=
  sageF id (aggArr V c) (featArr V c) (wlArr V c) (wrArr V c) (fun q => biasArr V c (ix2 (0 : Fin 1) q))

theorem origin : (![0, 0] : Fin 2 → Nat) = fun _ => 0 := funext fun a => by fin_cases a <;> rfl

/-- The printed index maps, decided over the grid: the two row-blocked inputs and the output are at block row `t`,
    block column 0; the weights and the bias are at block (0, 0). -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- A block whose rows are rows `r` of the arrays, with the weights and the bias whole, stores the layer's row `r`. -/
theorem block_value (A X : Vec Ideal S100000x128 .f32) (Wl Wr : Vec Ideal S128x2 .f32) (B : Vec Ideal S1x2 .f32)
    (x0 x1 : Vec Ideal S5000x128 .f32) (x2 x3 : Vec Ideal S128x2 .f32) (x4 : Vec Ideal S1x2 .f32)
    (p : Fin 5000) (q : Fin 2) (r : Fin 100000)
    (h0 : ∀ k : Fin 128, x0 (ix2 p k) = A (ix2 r k)) (h1 : ∀ k : Fin 128, x1 (ix2 p k) = X (ix2 r k))
    (h2 : x2 = Wl) (h3 : x3 = Wr) (h4 : x4 = B) :
    k1_pay1 (F := Ideal) x0 x1 x2 x3 x4 (ix2 p q) = sageF id A X Wl Wr (fun q => B (ix2 (0 : Fin 1) q)) (ix2 r q) := by
  rw [pay1_at]
  subst h2 h3 h4
  unfold sageF rowDot
  simp only [h0, h1]

/-- WHAT POINT `t` WRITES BACK is block `t` of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x2) origin, View.ld_unit_zero (S := S1x2) origin]
  obtain ⟨e00, e01, e10, e11, e20, e21, e30, e31, e40, e41, e50, e51⟩ := index_maps t
  have ht : t.val < 20 := lt_of_lt_of_eq t.isLt N_1
  funext j
  have hj0 : (j 0).val < 5000 := (j 0).isLt
  have hj1 : (j 1).val < 2 := (j 1).isLt
  have hr : t.val * 5000 + (j 0).val < 100000 := by omega
  have ej : j = ix2 (⟨(j 0).val, hj0⟩ : Fin 5000) (⟨(j 1).val, hj1⟩ : Fin 2) :=
    funext fun a => Fin.ext (by match a with | ⟨0, _⟩ => rfl | ⟨1, _⟩ => rfl)
  have ei : ((cfg1.win 5).blk t).view.emb j = ix2 (⟨t.val * 5000 + (j 0).val, hr⟩ : Fin 100000) (⟨(j 1).val, hj1⟩ : Fin 2) :=
    funext fun a => Fin.ext (by
      match a with
      | ⟨0, _⟩ => show win1_5.index t (0 : Fin 2) * 5000 + 1 * (j 0).val = t.val * 5000 + (j 0).val; omega
      | ⟨1, _⟩ => show win1_5.index t (1 : Fin 2) * 2 + 1 * (j 1).val = (j 1).val; omega)
  show k1_pay1 (F := Ideal) (iblk1 V c 0 t) (iblk1 V c 1 t) (iblk1 V c 2 t) (iblk1 V c 3 t) (iblk1 V c 4 t) j
    = layer V c (((cfg1.win 5).blk t).view.emb j)
  rw [ei]
  refine (congrArg (k1_pay1 (F := Ideal) (iblk1 V c 0 t) (iblk1 V c 1 t) (iblk1 V c 2 t) (iblk1 V c 3 t) (iblk1 V c 4 t)) ej).trans ?_
  refine block_value (aggArr V c) (featArr V c) (wlArr V c) (wrArr V c) (biasArr V c) (iblk1 V c 0 t) (iblk1 V c 1 t) (iblk1 V c 2 t) (iblk1 V c 3 t) (iblk1 V c 4 t)
    ⟨(j 0).val, hj0⟩ ⟨(j 1).val, hj1⟩ ⟨t.val * 5000 + (j 0).val, hr⟩ ?_ ?_ ?_ ?_ ?_
  · intro k
    show V c main_v39 (((cfg1.win 0).blk t).view.emb (ix2 (⟨(j 0).val, hj0⟩ : Fin 5000) k)) = V c main_v39 (ix2 (⟨t.val * 5000 + (j 0).val, hr⟩ : Fin 100000) k)
    refine congrArg (V c main_v39) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * k.val = k.val; omega
  · intro k
    show V c main_v26 (((cfg1.win 1).blk t).view.emb (ix2 (⟨(j 0).val, hj0⟩ : Fin 5000) k)) = V c main_v26 (ix2 (⟨t.val * 5000 + (j 0).val, hr⟩ : Fin 100000) k)
    refine congrArg (V c main_v26) (funext fun a => Fin.ext ?_)
    match a with
    | ⟨0, _⟩ => show win1_1.index t (0 : Fin 2) * 5000 + 1 * (j 0).val = t.val * 5000 + (j 0).val; omega
    | ⟨1, _⟩ => show win1_1.index t (1 : Fin 2) * 128 + 1 * k.val = k.val; omega
  · funext y
    show V c main_arg6 (((cfg1.win 2).blk t).view.emb y) = V c main_arg6 y
    refine congrArg (V c main_arg6) (funext fun a => Fin.ext ?_)
    match a with
    | ⟨0, _⟩ => show win1_2.index t (0 : Fin 2) * 128 + 1 * (y 0).val = (y 0).val; omega
    | ⟨1, _⟩ => show win1_2.index t (1 : Fin 2) * 2 + 1 * (y 1).val = (y 1).val; omega
  · funext y
    show V c main_arg7 (((cfg1.win 3).blk t).view.emb y) = V c main_arg7 y
    refine congrArg (V c main_arg7) (funext fun a => Fin.ext ?_)
    match a with
    | ⟨0, _⟩ => show win1_3.index t (0 : Fin 2) * 128 + 1 * (y 0).val = (y 0).val; omega
    | ⟨1, _⟩ => show win1_3.index t (1 : Fin 2) * 2 + 1 * (y 1).val = (y 1).val; omega
  · funext y
    show V c main_v40 (((cfg1.win 4).blk t).view.emb y) = V c main_v40 y
    refine congrArg (V c main_v40) (funext fun a => Fin.ext ?_)
    match a with
    | ⟨0, _⟩ => show win1_4.index t (0 : Fin 2) * 1 + 1 * (y 0).val = (y 0).val; omega
    | ⟨1, _⟩ => show win1_4.index t (1 : Fin 2) * 2 + 1 * (y 1).val = (y 1).val; omega

/-- An index of the result array is in point `t`'s block iff each coordinate is in the block's range on its axis. -/
theorem mem_block (t : Fin cfg1.N) (i : S100000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v41).slice (win1_5.rect t)).set ↔ _
  rw [View.set_slice_whole, Rect.mem_set_unit]
  exact Iff.rfl

/-- Every index of the result array lies in the block of the point its row divided by 5000 names. -/
theorem covered (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  have hq : (i 0).val / 5000 < 20 := by omega
  refine ⟨⟨(i 0).val / 5000, lt_of_lt_of_eq hq N_1.symm⟩, flush1_5 _, ?_⟩
  obtain ⟨-, -, -, -, -, -, -, -, -, -, e50, e51⟩ := index_maps ⟨(i 0).val / 5000, lt_of_lt_of_eq hq N_1.symm⟩
  have e50' : win1_5.index ⟨(i 0).val / 5000, lt_of_lt_of_eq hq N_1.symm⟩ (0 : Fin 2) = (i 0).val / 5000 := e50
  rw [mem_block]
  intro a
  match a with
  | ⟨0, _⟩ =>
    show win1_5.index ⟨(i 0).val / 5000, lt_of_lt_of_eq hq N_1.symm⟩ (0 : Fin 2) * 5000 ≤ (i 0).val
      ∧ (i 0).val < win1_5.index ⟨(i 0).val / 5000, lt_of_lt_of_eq hq N_1.symm⟩ (0 : Fin 2) * 5000 + 5000
    omega
  | ⟨1, _⟩ =>
    show win1_5.index ⟨(i 0).val / 5000, lt_of_lt_of_eq hq N_1.symm⟩ (1 : Fin 2) * 2 ≤ (i 1).val
      ∧ (i 1).val < win1_5.index ⟨(i 0).val / 5000, lt_of_lt_of_eq hq N_1.symm⟩ (1 : Fin 2) * 2 + 2
    omega

/-- THE RESULT ARRAY after the region: the layer of the arrays the region was entered with. -/
theorem result_eq (c : Dev nD) : (dat1 V c).arrAt 5 cfg1.N = layer V c :=
  (dat1 V c).arrAt_eq_of_cover 5 (layer V c) (fun t _ => flushed_eq V c t) covered

end Cert.KernelIdeal.Region1

end
-- ==== Proof.RefStages.lean ====
/-
  The reference's program cut where the kernel's program has its two pallas_calls. Around those two places both
  programs run the same host operations, so each such stretch is named here as ONE function of the array it is applied
  to: the mean of the hidden features over every node's incoming edges, the mean over every graph's nodes, and the
  log-softmax of the pooled rows. The two dense layers in between are the only places where the programs differ; each
  is read index by index: entry (p, q) is row p of the aggregated features against column q of the first weight
  matrix, plus row p of the node's own features against column q of the second, plus the bias at q, and after the first
  layer the maximum with zero.
-/
import proofs.«102823_j5617817223572_1_alg».proof.Proof.Gen.ReferenceIdeal.Read
import proofs.«102823_j5617817223572_1_alg».proof.Proof.LayerSpec
import Idealize.ShloMosaic.Lib.ValueIdx

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.ValueIdx
open Idealize.ShloMosaic.SageSpec Cert.SageNet

section Stretches
variable {F : FTy → Type} [FloatOps F]

/-- The first layer as the host spells it: two products, their sum, the bias spread over the rows, the maximum with zero. -/
def dense1 (agg x : (⟨S100000x64, .f32⟩ : BufTy).Contents (Elt F)) (Wl Wr : (⟨S64x128, .f32⟩ : BufTy).Contents (Elt F)) (b : (⟨S128, .f32⟩ : BufTy).Contents (Elt F)) : (⟨S100000x128, .f32⟩ : BufTy).Contents (Elt F) :=
  maximumf (addf (addf (Host.dotGeneral dot_S100000x64_S64x128_S100000x128_1_0_0_1_n_n none agg Wl) (Host.dotGeneral dot_S100000x64_S64x128_S100000x128_1_0_0_1_n_n none x Wr)) (val_main_v29 (F := F) b)) (val_main_call0_v0 (F := F))

/-- The hidden features `h` averaged over every node's incoming edges: a gather of the source rows, a scatter-add to
    the destination rows, and the product with one over the clamped in-degree. -/
def aggHidden (h : (⟨S100000x128, .f32⟩ : BufTy).Contents (Elt F)) (x1 : (⟨S2x1600000, .i32⟩ : BufTy).Contents (Elt F)) : (⟨S100000x128, .f32⟩ : BufTy).Contents (Elt F) :=
  mulf (Host.scatterAdd scatter_S100000x128_S1600000x1_S1600000x128_1_0_0_1 (val_main_v39 (F := F)) (val_main_v40 (F := F) x1)
    (Host.gather gather_S100000x128_S1600000x1_S1600000x128_1_0_n_n_0_1_1128 h (val_main_v37 (F := F) x1))) (val_main_v43 (F := F) x1)

/-- The second layer as the host spells it: two products, their sum, the bias spread over the rows. -/
def dense2 (agg h : (⟨S100000x128, .f32⟩ : BufTy).Contents (Elt F)) (Wl Wr : (⟨S128x2, .f32⟩ : BufTy).Contents (Elt F)) (b : (⟨S2, .f32⟩ : BufTy).Contents (Elt F)) : (⟨S100000x2, .f32⟩ : BufTy).Contents (Elt F) :=
  addf (addf (Host.dotGeneral dot_S100000x128_S128x2_S100000x2_1_0_0_1_n_n none agg Wl) (Host.dotGeneral dot_S100000x128_S128x2_S100000x2_1_0_0_1_n_n none h Wr)) (val_main_v49 (F := F) b)

/-- The node logits `out` averaged over every graph's nodes: a scatter-add by graph id, divided by the clamped node count. -/
def pool (out : (⟨S100000x2, .f32⟩ : BufTy).Contents (Elt F)) (x2 : (⟨S100000, .i32⟩ : BufTy).Contents (Elt F)) : (⟨S64x2, .f32⟩ : BufTy).Contents (Elt F) :=
  Host.divf (Host.scatterAdd scatter_S64x2_S100000x1_S100000x2_1_0_0_1 (val_main_v55 (F := F)) (val_main_v56 (F := F) x2) out) (val_main_v61 (F := F) x2)

/-- The log-softmax of the rows of `p`: `p` less its row maximum, less the logarithm of the row sum of the exponentials of that. -/
def logSoftmax (p : (⟨S64x2, .f32⟩ : BufTy).Contents (Elt F)) : (⟨S64x2, .f32⟩ : BufTy).Contents (Elt F) :=
  subf
    (subf p (broadcastInDim S64x2 ![0, 1] bcast_S64x1_S64x2_0_1 (broadcastInDim S64x1 ![0] bcast_S64_S64x1_0
      (maximumf (val_main_call1_v1 (F := F)) (Host.reduce FloatOps.maximumf p (val_main_call1_cst (F := F)) reducesTo_S64x2_S64_d1 h_S_)))))
    (broadcastInDim S64x2 ![0, 1] bcast_S64x1_S64x2_0_1 (Host.log (broadcastInDim S64x1 ![0] bcast_S64_S64x1_0
      (Host.reduceAdd (Host.exp
        (subf p (broadcastInDim S64x2 ![0, 1] bcast_S64x1_S64x2_0_1 (broadcastInDim S64x1 ![0] bcast_S64_S64x1_0
          (maximumf (val_main_call1_v1 (F := F)) (Host.reduce FloatOps.maximumf p (val_main_call1_cst (F := F)) reducesTo_S64x2_S64_d1 h_S_))))))
        (val_main_call1_cst_1 (F := F)) reducesTo_S64x2_S64_d1 h_S_))))

variable (x0 : (⟨S100000x64, .f32⟩ : BufTy).Contents (Elt F)) (x1 : (⟨S2x1600000, .i32⟩ : BufTy).Contents (Elt F)) (x2 : (⟨S100000, .i32⟩ : BufTy).Contents (Elt F)) (x3 x4 : (⟨S64x128, .f32⟩ : BufTy).Contents (Elt F))
  (x5 : (⟨S128, .f32⟩ : BufTy).Contents (Elt F)) (x6 x7 : (⟨S128x2, .f32⟩ : BufTy).Contents (Elt F)) (x8 : (⟨S2, .f32⟩ : BufTy).Contents (Elt F))

/-- The reference's hidden features are the first layer of the aggregated input features and the input features. -/
theorem hidden_eq : val_main_v31 (F := F) x0 x1 x3 x4 x5 = dense1 (val_main_v24 (F := F) x0 x1) x0 x3 x4 x5 := rfl

/-- Its second aggregation is the edge mean of those hidden features. -/
theorem agg2_eq : val_main_v44 (F := F) x0 x1 x3 x4 x5 = aggHidden (val_main_v31 (F := F) x0 x1 x3 x4 x5) x1 := rfl

/-- Its node logits are the second layer of that aggregation and the hidden features. -/
theorem logits_eq : val_main_v50 (F := F) x0 x1 x3 x4 x5 x6 x7 x8
    = dense2 (val_main_v44 (F := F) x0 x1 x3 x4 x5) (val_main_v31 (F := F) x0 x1 x3 x4 x5) x6 x7 x8 := rfl

/-- Its first result is the graph mean of the node logits. -/
theorem pooled_eq : val_main_v62 (F := F) x0 x1 x2 x3 x4 x5 x6 x7 x8 = pool (val_main_v50 (F := F) x0 x1 x3 x4 x5 x6 x7 x8) x2 := rfl

/-- Its second result is the log-softmax of the first. -/
theorem logp_eq : val_main_v63 (F := F) x0 x1 x2 x3 x4 x5 x6 x7 x8 = logSoftmax (val_main_v62 (F := F) x0 x1 x2 x3 x4 x5 x6 x7 x8) := rfl

end Stretches

/-! ## The two dense layers, index by index, on the extended reals -/

/-- The first layer's products contract axis 1 of the rows against axis 0 of the weights. -/
theorem plainR1 : PlainDot dot_S100000x64_S64x128_S100000x128_1_0_0_1_n_n where
  rank := rfl
  size := fun _ => rfl
  l0 := fun i q => lhs_main_v25_0 i q
  l1 := fun i q _ => lhs_main_v25_1 i q
  r0 := fun i q _ => rhs_main_v25_0 i q
  r1 := fun i q => rhs_main_v25_1 i q

/-- So do the second layer's. -/
theorem plainR2 : PlainDot dot_S100000x128_S128x2_S100000x2_1_0_0_1_n_n where
  rank := rfl
  size := fun _ => rfl
  l0 := fun i q => lhs_main_v45_0 i q
  l1 := fun i q _ => lhs_main_v45_1 i q
  r0 := fun i q _ => rhs_main_v45_0 i q
  r1 := fun i q => rhs_main_v45_1 i q

/-- The host's first layer is, entry by entry, the rectified sum of the two row-by-column sums and the bias. -/
theorem dense1_eq (agg x : (⟨S100000x64, .f32⟩ : BufTy).Contents (Elt Ideal)) (Wl Wr : (⟨S64x128, .f32⟩ : BufTy).Contents (Elt Ideal)) (b : (⟨S128, .f32⟩ : BufTy).Contents (Elt Ideal)) :
    dense1 (F := Ideal) agg x Wl Wr b = sageF relu agg x Wl Wr (fun q => b (ix1 q)) := by
  funext i
  have hb : idx_main_v28 (idx_main_v29 i) = ix1 (i 1) := funext fun a => Fin.ext (by match a with | ⟨0, _⟩ => rfl)
  unfold dense1 sageF relu
  rw [maximumf_apply, addf_apply, addf_apply, dotGeneral_at plainR1, dotGeneral_at plainR1, val_main_v29_apply, val_main_v28_apply, hb,
    val_main_call0_v0_apply, val_main_call0_cst_apply]
  rfl

/-- The host's second layer is, entry by entry, the sum of the two row-by-column sums and the bias. -/
theorem dense2_eq (agg h : (⟨S100000x128, .f32⟩ : BufTy).Contents (Elt Ideal)) (Wl Wr : (⟨S128x2, .f32⟩ : BufTy).Contents (Elt Ideal)) (b : (⟨S2, .f32⟩ : BufTy).Contents (Elt Ideal)) :
    dense2 (F := Ideal) agg h Wl Wr b = sageF id agg h Wl Wr (fun q => b (ix1 q)) := by
  funext i
  have hb : idx_main_v48 (idx_main_v49 i) = ix1 (i 1) := funext fun a => Fin.ext (by match a with | ⟨0, _⟩ => rfl)
  unfold dense2 sageF
  rw [addf_apply, addf_apply, dotGeneral_at plainR2, dotGeneral_at plainR2, val_main_v49_apply, val_main_v48_apply, hb, id_eq]
  rfl

end Cert.ReferenceIdeal.Stages

end
-- ==== Proof.Net.lean ====
/-
  The whole network as one function of the nine arguments, on the extended reals: the hidden features are the rectified
  first layer of the edge mean of the input features and the input features; the node logits are the second layer of
  the edge mean of the hidden features and the hidden features; the first result is the graph mean of the node logits
  and the second its log-softmax. The reference computes exactly this: its host spelling of each dense layer is the
  index-by-index layer, and everything else is the shared stretches applied to it.
-/
import proofs.«102823_j5617817223572_1_alg».proof.Proof.RefStages

set_option maxRecDepth 16384

noncomputable section

namespace Cert.ReferenceIdeal.Stages

open Cert.ReferenceIdeal Cert.ReferenceIdeal.Gen Cert.ReferenceIdeal.Read Idealize.ShloMosaic Idealize.ShloMosaic.ValueIdx
open Idealize.ShloMosaic.SageSpec Cert.SageNet

variable (x0 : (⟨S100000x64, .f32⟩ : BufTy).Contents (Elt Ideal)) (x1 : (⟨S2x1600000, .i32⟩ : BufTy).Contents (Elt Ideal)) (x2 : (⟨S100000, .i32⟩ : BufTy).Contents (Elt Ideal)) (x3 x4 : (⟨S64x128, .f32⟩ : BufTy).Contents (Elt Ideal))
  (x5 : (⟨S128, .f32⟩ : BufTy).Contents (Elt Ideal)) (x6 x7 : (⟨S128x2, .f32⟩ : BufTy).Contents (Elt Ideal)) (x8 : (⟨S2, .f32⟩ : BufTy).Contents (Elt Ideal))

/-- The hidden features: max(mean-aggregate(x) · W1l + x · W1r + b1, 0). -/
def hiddenOf : (⟨S100000x128, .f32⟩ : BufTy).Contents (Elt Ideal) :=
  sageF relu (val_main_v24 (F := Ideal) x0 x1) x0 x3 x4 (fun q => x5 (ix1 q))

/-- The node logits: mean-aggregate(h) · W2l + h · W2r + b2. -/
def logitsOf : (⟨S100000x2, .f32⟩ : BufTy).Contents (Elt Ideal) :=
  sageF id (aggHidden (F := Ideal) (hiddenOf x0 x1 x3 x4 x5) x1) (hiddenOf x0 x1 x3 x4 x5) x6 x7 (fun q => x8 (ix1 q))

/-- The first result: the node logits averaged over each graph. -/
def pooledOf : (⟨S64x2, .f32⟩ : BufTy).Contents (Elt Ideal) := pool (F := Ideal) (logitsOf x0 x1 x3 x4 x5 x6 x7 x8) x2

/-- The second result: the log-softmax of the first. -/
def logpOf : (⟨S64x2, .f32⟩ : BufTy).Contents (Elt Ideal) := logSoftmax (F := Ideal) (pooledOf x0 x1 x2 x3 x4 x5 x6 x7 x8)

/-- The reference's hidden features are the network's. -/
theorem ref_hidden : val_main_v31 (F := Ideal) x0 x1 x3 x4 x5 = hiddenOf x0 x1 x3 x4 x5 := by
  rw [hidden_eq, dense1_eq]; rfl

/-- The reference's first result is the network's. -/
theorem ref_pooled : val_main_v62 (F := Ideal) x0 x1 x2 x3 x4 x5 x6 x7 x8 = pooledOf x0 x1 x2 x3 x4 x5 x6 x7 x8 := by
  rw [pooled_eq, logits_eq, agg2_eq, ref_hidden, dense2_eq]; rfl

/-- The reference's second result is the network's. -/
theorem ref_logp : val_main_v63 (F := Ideal) x0 x1 x2 x3 x4 x5 x6 x7 x8 = logpOf x0 x1 x2 x3 x4 x5 x6 x7 x8 := by
  rw [logp_eq, ref_pooled]; rfl

end Cert.ReferenceIdeal.Stages

end
-- ==== Proof.KernelFold.lean ====
/-
  The kernel's program from the launch to the return, read at the buffers that matter. Before the first pallas_call
  the host operations compute, from the launch arguments, the edge mean of the input features and the bias as a one-row
  matrix: the same operations as the reference's. The first pallas_call leaves the hidden features in its result array.
  The operations between the two calls compute the edge mean of those hidden features, again as the reference does,
  and the second bias row; the second pallas_call leaves the node logits; the operations after it pool the logits over
  each graph and take the log-softmax. No operation and no region writes an argument, so each argument reads through
  the whole fold as launched. Hence the kernel's two results are the network's two functions of the arguments.
-/
import proofs.«102823_j5617817223572_1_alg».proof.Proof.Gen.KernelIdeal.Frame
import proofs.«102823_j5617817223572_1_alg».proof.Proof.Region0
import proofs.«102823_j5617817223572_1_alg».proof.Proof.Region1
import proofs.«102823_j5617817223572_1_alg».proof.Proof.Net
import Idealize.ShloMosaic.Lib.StableHlo.Run
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.ShloMosaic.ValueIdx Idealize.ShloMosaic.SageSpec Cert.SageNet
open Idealize.SL.Sem Idealize.ShloMosaic.StableHlo

variable (m : (ℓ : Loc nD τ sig) → Buf (Elt Ideal) ℓ) (ρ : Dev nD → PrngReg) (c : Dev nD)

/-! ## The launch arguments, by their literal types -/

abbrev inX : Vec Ideal S100000x64 .f32 := m ((c : Thread nD τ).loc main_arg0)
abbrev inEdges : IVec S2x1600000 32 := m ((c : Thread nD τ).loc main_arg1)
abbrev inBatch : IVec S100000 32 := m ((c : Thread nD τ).loc main_arg2)
abbrev inW1l : Vec Ideal S64x128 .f32 := m ((c : Thread nD τ).loc main_arg3)
abbrev inW1r : Vec Ideal S64x128 .f32 := m ((c : Thread nD τ).loc main_arg4)
abbrev inB1 : Vec Ideal S128 .f32 := m ((c : Thread nD τ).loc main_arg5)
abbrev inW2l : Vec Ideal S128x2 .f32 := m ((c : Thread nD τ).loc main_arg6)
abbrev inW2r : Vec Ideal S128x2 .f32 := m ((c : Thread nD τ).loc main_arg7)
abbrev inB2 : Vec Ideal S2 .f32 := m ((c : Thread nD τ).loc main_arg8)

/-! ## Before the first call -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl

/-- The source node of every edge, the destination node of every edge, one over the clamped in-degree: as the reference has them. -/
theorem W1_src : W1 m ρ c (Proc.devRef .tc main_v1) = Cert.ReferenceIdeal.Read.val_main_v1 (F := Ideal) (inEdges m c) := by
  show StableHlo.after hostOps0 (W0 m ρ c) (Proc.devRef .tc main_v1) = _
  after_results_simp <;> rfl
theorem W1_dst : W1 m ρ c (Proc.devRef .tc main_v3) = Cert.ReferenceIdeal.Read.val_main_v3 (F := Ideal) (inEdges m c) := by
  show StableHlo.after hostOps0 (W0 m ρ c) (Proc.devRef .tc main_v3) = _
  after_results_simp <;> rfl
theorem W1_invdeg : W1 m ρ c (Proc.devRef .tc main_v11) = Cert.ReferenceIdeal.Read.val_main_v11 (F := Ideal) (inEdges m c) := by
  show StableHlo.after hostOps0 (W0 m ρ c) (Proc.devRef .tc main_v11) = _
  after_results_simp <;> rfl

/-- The edge mean of the input features, as the reference has it. -/
theorem W1_agg : W1 m ρ c (Proc.devRef .tc main_v24) = Cert.ReferenceIdeal.Read.val_main_v24 (F := Ideal) (inX m c) (inEdges m c) := by
  show StableHlo.after hostOps0 (W0 m ρ c) (Proc.devRef .tc main_v24) = _
  after_results_simp <;> rfl

/-- The first bias as a one-row matrix. -/
theorem W1_bias : W1 m ρ c (Proc.devRef .tc main_v25) = shapeCast S1x128 (inB1 m c) shapeCasts_S128_S1x128 := by
  show StableHlo.after hostOps0 (W0 m ρ c) (Proc.devRef .tc main_v25) = _
  after_results_simp <;> rfl

/-! ## The first call's result: the hidden features -/

theorem W2_hidden : W2 m ρ c (Proc.devRef .tc main_v26)
    = Cert.ReferenceIdeal.Stages.hiddenOf (inX m c) (inEdges m c) (inW1l m c) (inW1r m c) (inB1 m c) := by
  refine (W2_arr m ρ c 5).trans ((Region0.result_eq (V1 m ρ) c).trans ?_)
  unfold Region0.layer Cert.ReferenceIdeal.Stages.hiddenOf
  have e24 : Region0.aggArr (V1 m ρ) c = Cert.ReferenceIdeal.Read.val_main_v24 (F := Ideal) (inX m c) (inEdges m c) := W1_agg m ρ c
  have e0 : Region0.featArr (V1 m ρ) c = inX m c := W1_arg0 m ρ c
  have e3 : Region0.wlArr (V1 m ρ) c = inW1l m c := W1_arg3 m ρ c
  have e4 : Region0.wrArr (V1 m ρ) c = inW1r m c := W1_arg4 m ρ c
  have eb : (fun q : Fin 128 => Region0.biasArr (V1 m ρ) c (ix2 (0 : Fin 1) q)) = fun q => inB1 m c (ix1 q) := funext fun q => by
    rw [show Region0.biasArr (V1 m ρ) c = shapeCast S1x128 (inB1 m c) shapeCasts_S128_S1x128 from W1_bias m ρ c]
    exact shapeCast_a_1a_apply (inB1 m c) shapeCasts_S128_S1x128 0 q
  rw [e24, e0, e3, e4, eb]

/-! ## Between the two calls -/

theorem W2_src : W2 m ρ c (Proc.devRef .tc main_v1) = W1 m ρ c (Proc.devRef .tc main_v1) := W2_of_ne m ρ c main_v1 (by decide)
theorem W2_dst : W2 m ρ c (Proc.devRef .tc main_v3) = W1 m ρ c (Proc.devRef .tc main_v3) := W2_of_ne m ρ c main_v3 (by decide)
theorem W2_invdeg : W2 m ρ c (Proc.devRef .tc main_v11) = W1 m ρ c (Proc.devRef .tc main_v11) := W2_of_ne m ρ c main_v11 (by decide)
theorem W2_arg2 : W2 m ρ c (Proc.devRef .tc main_arg2) = m ((c : Thread nD τ).loc main_arg2) :=
  (W2_of_ne m ρ c main_arg2 (by decide)).trans (W1_arg2 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg6 : W3 m ρ c (Proc.devRef .tc main_arg6) = m ((c : Thread nD τ).loc main_arg6) := by
  show StableHlo.after hostOps1 (W2 m ρ c) (Proc.devRef .tc main_arg6) = _
  after_results
  exact W2_arg6 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c

/-- The hidden features read through the stretch: no operation of it writes them. -/
theorem W3_hidden : W3 m ρ c (Proc.devRef .tc main_v26) = W2 m ρ c (Proc.devRef .tc main_v26) := by
  show StableHlo.after hostOps1 (W2 m ρ c) (Proc.devRef .tc main_v26) = _
  after_results

set_option maxHeartbeats 4000000 in
/-- The edge mean of the hidden features, as the reference takes it of its own. -/
theorem W3_agg : W3 m ρ c (Proc.devRef .tc main_v39) = Cert.ReferenceIdeal.Stages.aggHidden (F := Ideal) (W2 m ρ c (Proc.devRef .tc main_v26)) (inEdges m c) := by
  show StableHlo.after hostOps1 (W2 m ρ c) (Proc.devRef .tc main_v39) = _
  after_results_simp
  rw [W2_src, W2_dst, W2_invdeg, W1_src, W1_dst, W1_invdeg]
  rfl

set_option maxHeartbeats 4000000 in
/-- The second bias as a one-row matrix. -/
theorem W3_bias : W3 m ρ c (Proc.devRef .tc main_v40) = shapeCast S1x2 (inB2 m c) shapeCasts_S2_S1x2 := by
  show StableHlo.after hostOps1 (W2 m ρ c) (Proc.devRef .tc main_v40) = _
  after_results_simp
  rw [W2_arg8]
  rfl

/-! ## The second call's result: the node logits -/

theorem W4_logits : W4 m ρ c (Proc.devRef .tc main_v41)
    = Cert.ReferenceIdeal.Stages.logitsOf (inX m c) (inEdges m c) (inW1l m c) (inW1r m c) (inB1 m c) (inW2l m c) (inW2r m c) (inB2 m c) := by
  refine (W4_arr m ρ c 5).trans ((Region1.result_eq (V3 m ρ) c).trans ?_)
  unfold Region1.layer Cert.ReferenceIdeal.Stages.logitsOf
  have eh : Region1.featArr (V3 m ρ) c = Cert.ReferenceIdeal.Stages.hiddenOf (inX m c) (inEdges m c) (inW1l m c) (inW1r m c) (inB1 m c) :=
    (W3_hidden m ρ c).trans (W2_hidden m ρ c)
  have ea : Region1.aggArr (V3 m ρ) c
      = Cert.ReferenceIdeal.Stages.aggHidden (F := Ideal) (Cert.ReferenceIdeal.Stages.hiddenOf (inX m c) (inEdges m c) (inW1l m c) (inW1r m c) (inB1 m c)) (inEdges m c) :=
    (W3_agg m ρ c).trans (by rw [W2_hidden])
  have e6 : Region1.wlArr (V3 m ρ) c = inW2l m c := W3_arg6 m ρ c
  have e7 : Region1.wrArr (V3 m ρ) c = inW2r m c := W3_arg7 m ρ c
  have eb : (fun q : Fin 2 => Region1.biasArr (V3 m ρ) c (ix2 (0 : Fin 1) q)) = fun q => inB2 m c (ix1 q) := funext fun q => by
    rw [show Region1.biasArr (V3 m ρ) c = shapeCast S1x2 (inB2 m c) shapeCasts_S2_S1x2 from W3_bias m ρ c]
    exact shapeCast_a_1a_apply (inB2 m c) shapeCasts_S2_S1x2 0 q
  rw [ea, eh, e6, e7, eb]

/-! ## After the second call -/

theorem W4_arg2 : W4 m ρ c (Proc.devRef .tc main_arg2) = m ((c : Thread nD τ).loc main_arg2) :=
  (W4_of_ne m ρ c main_arg2 (by decide)).trans (W3_arg2 m ρ c)

set_option maxHeartbeats 4000000 in
/-- The graph mean of the node logits, as the reference takes it of its own. -/
theorem W5_pooled : W5 m ρ c (Proc.devRef .tc main_v53) = Cert.ReferenceIdeal.Stages.pool (F := Ideal) (W4 m ρ c (Proc.devRef .tc main_v41)) (inBatch m c) := by
  show StableHlo.after hostOps2 (W4 m ρ c) (Proc.devRef .tc main_v53) = _
  after_results_simp
  rw [W4_arg2]
  rfl

set_option maxHeartbeats 4000000 in
/-- THE FIRST RESULT: the network's pooled logits of the launch arguments. -/
theorem pooled_eq : W6 m ρ c (Proc.devRef .tc main_v53)
    = Cert.ReferenceIdeal.Stages.pooledOf (inX m c) (inEdges m c) (inBatch m c) (inW1l m c) (inW1r m c) (inB1 m c) (inW2l m c) (inW2r m c) (inB2 m c) := by
  have h : W6 m ρ c (Proc.devRef .tc main_v53) = W5 m ρ c (Proc.devRef .tc main_v53) := by
    show StableHlo.after hostOps2_1 (W5 m ρ c) (Proc.devRef .tc main_v53) = _
    after_results_simp
  rw [h, W5_pooled, W4_logits]
  rfl

set_option maxHeartbeats 4000000 in
/-- THE SECOND RESULT: the log-softmax of the first. -/
theorem logp_eq : W6 m ρ c (Proc.devRef .tc main_v54)
    = Cert.ReferenceIdeal.Stages.logpOf (inX m c) (inEdges m c) (inBatch m c) (inW1l m c) (inW1r m c) (inB1 m c) (inW2l m c) (inW2r m c) (inB2 m c) := by
  have h : W6 m ρ c (Proc.devRef .tc main_v54) = Cert.ReferenceIdeal.Stages.logSoftmax (F := Ideal) (W5 m ρ c (Proc.devRef .tc main_v53)) := by
    show StableHlo.after hostOps2_1 (W5 m ρ c) (Proc.devRef .tc main_v54) = _
    after_results_simp
    rfl
  rw [h, W5_pooled, W4_logits]
  rfl

end Cert.KernelIdeal.Fold

end
-- ==== Proof.lean ====
/-
  The kernel computes a two-layer GraphSAGE network with mean aggregation, a mean pool per graph and a log-softmax:
  its two dense layers run as pallas_calls over blocks of 5000 node rows, everything else as host operations. The
  reference computes the same network with every step on the host.

  On the extended reals the two programs agree, result by result. Around the dense layers both run the same host
  operations on the same arrays (the edge means, the graph mean, the log-softmax), so it is enough that each dense
  layer leaves the same array. A layer's entry (p, q) is row p of the aggregated features against column q of one
  weight matrix, plus row p of the node's own features against column q of the other, plus the bias at q (and, after
  the first layer, the maximum with zero). The kernel's body computes exactly that on its block, the rounding of its
  operands to bf16 being the identity on the extended reals and its products starting from a zero accumulator; row p of
  block t is row 5000·t + p of the array, and the 20 blocks tile the array. The host's two dot_generals, their sum and
  the broadcast bias are the same entry. No law of arithmetic beyond this reading is used, so the finiteness of the
  inputs is never needed.

  The three frames are the generated ones (the reference's is its generated run with the results dropped), and the
  ideal pass rewrote nothing, so there is nothing to preserve.
-/
import proofs.«102823_j5617817223572_1_alg».proof.Defs
import proofs.«102823_j5617817223572_1_alg».proof.Proof.Gen.Kernel
import proofs.«102823_j5617817223572_1_alg».proof.Proof.Gen.Kernel.Skeleton
import proofs.«102823_j5617817223572_1_alg».proof.Proof.Gen.Kernel.Launch
import proofs.«102823_j5617817223572_1_alg».proof.Proof.Gen.Kernel.Points
import proofs.«102823_j5617817223572_1_alg».proof.Proof.Gen.Kernel.Frame
import proofs.«102823_j5617817223572_1_alg».proof.Proof.Gen.KernelIdeal
import proofs.«102823_j5617817223572_1_alg».proof.Proof.Gen.KernelIdeal.Skeleton
import proofs.«102823_j5617817223572_1_alg».proof.Proof.Gen.KernelIdeal.Launch
import proofs.«102823_j5617817223572_1_alg».proof.Proof.Gen.KernelIdeal.Points
import proofs.«102823_j5617817223572_1_alg».proof.Proof.Gen.KernelIdeal.Frame
import proofs.«102823_j5617817223572_1_alg».proof.Proof.Gen.ReferenceIdeal
import proofs.«102823_j5617817223572_1_alg».proof.Proof.Gen.ReferenceIdeal.Run
import proofs.«102823_j5617817223572_1_alg».proof.Proof.Gen.ReferenceIdeal.Read
import proofs.«102823_j5617817223572_1_alg».proof.Proof.Gen.Pre_finite_inputs
import proofs.«102823_j5617817223572_1_alg».proof.Proof.NamedRun
import proofs.«102823_j5617817223572_1_alg».proof.Proof.KernelFold
import proofs.«102823_j5617817223572_1_alg».proof.Proof.Net
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the network's pooled logits and their log-softmax of the (agreed) arguments. -/
theorem algebraic : Cert.algebraic_KernelIdeal_ReferenceIdeal := by
  intro m ρ m' ρ' _ hagree
  refine ⟨fun c => Cert.KernelIdeal.Gen.W6 m ρ c (Proc.devRef .tc Cert.KernelIdeal.main_v53),
    fun c => Cert.KernelIdeal.Gen.W6 m ρ c (Proc.devRef .tc Cert.KernelIdeal.main_v54), Cert.KernelIdeal.NamedRun.run_named m ρ, ?_⟩
  refine (θ_run Cert.ReferenceIdeal.defs _ _).mono (fun r h c => ⟨?_, ?_, (h c).2.2⟩)
    (Cert.ReferenceIdeal.Value.run (F := Ideal) m' ρ')
  · obtain ⟨e0, e1, e2, e3, e4, e5, e6, e7, e8⟩ := hagree c
    show r.2.mem ((c.tc : Thread Cert.ReferenceIdeal.nD Cert.ReferenceIdeal.τ).loc Cert.ReferenceIdeal.main_v62) = Cert.KernelIdeal.Gen.W6 m ρ c (Proc.devRef .tc Cert.KernelIdeal.main_v53)
    rw [(h c).1, Cert.ReferenceIdeal.Read.val_main_v62_eq, Cert.ReferenceIdeal.Stages.ref_pooled, Cert.KernelIdeal.Fold.pooled_eq, e0, e1, e2, e3, e4, e5, e6, e7, e8]
  · obtain ⟨e0, e1, e2, e3, e4, e5, e6, e7, e8⟩ := hagree c
    show r.2.mem ((c.tc : Thread Cert.ReferenceIdeal.nD Cert.ReferenceIdeal.τ).loc Cert.ReferenceIdeal.main_v63) = Cert.KernelIdeal.Gen.W6 m ρ c (Proc.devRef .tc Cert.KernelIdeal.main_v54)
    rw [(h c).2.1, Cert.ReferenceIdeal.Read.val_main_v63_eq, Cert.ReferenceIdeal.Stages.ref_logp, Cert.KernelIdeal.Fold.logp_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
